-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x32 .f32) (main_arg4 : FVec F S32 .f32) (main_arg5 : IVec S2x3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S1x64 : Shape := ⟨2, ![1, 64]⟩
abbrev S100000x32 : Shape := ⟨2, ![100000, 32]⟩
abbrev S5000x32 : Shape := ⟨2, ![5000, 32]⟩
abbrev S3300000x32 : Shape := ⟨2, ![3300000, 32]⟩
abbrev S1x32 : Shape := ⟨2, ![1, 32]⟩

abbrev nBuf : Space → Nat
  | .hbm => 77
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x64, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x64, .f32⟩
  | .hbm, ⟨49, _⟩ => ⟨S3300000x1, .f32⟩
  | .hbm, ⟨50, _⟩ => ⟨S3300000x64, .f32⟩
  | .hbm, ⟨51, _⟩ => ⟨S3300000x64, .f32⟩
  | .hbm, ⟨52, _⟩ => ⟨S_, .f32⟩
  | .hbm, ⟨53, _⟩ => ⟨S100000x64, .f32⟩
  | .hbm, ⟨54, _⟩ => ⟨S3300000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x32, .f32⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S3300000x32, .f32⟩
  | .hbm, ⟨68, _⟩ => ⟨S3300000x1, .f32⟩
  | .hbm, ⟨69, _⟩ => ⟨S3300000x32, .f32⟩
  | .hbm, ⟨70, _⟩ => ⟨S3300000x32, .f32⟩
  | .hbm, ⟨71, _⟩ => ⟨S_, .f32⟩
  | .hbm, ⟨72, _⟩ => ⟨S100000x32, .f32⟩
  | .hbm, ⟨73, _⟩ => ⟨S3300000x1, .i32⟩
  | .hbm, ⟨74, _⟩ => ⟨S100000x32, .f32⟩
  | .hbm, ⟨75, _⟩ => ⟨S1x32, .f32⟩
  | .hbm, ⟨76, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x32_S5000x32_1_0_0_1_n_n_wf : DotDims.WF S5000x64 S64x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x64, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x64, .f32⟩
  | .hbm, ⟨49, _⟩ => ⟨S3300000x1, .f32⟩
  | .hbm, ⟨50, _⟩ => ⟨S3300000x64, .f32⟩
  | .hbm, ⟨51, _⟩ => ⟨S3300000x64, .f32⟩
  | .hbm, ⟨52, _⟩ => ⟨S_, .f32⟩
  | .hbm, ⟨53, _⟩ => ⟨S100000x64, .f32⟩
  | .hbm, ⟨54, _⟩ => ⟨S3300000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x32, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x32, .f32⟩
  | .hbm, ⟨72, _⟩ => ⟨S3300000x1, .f32⟩
  | .hbm, ⟨73, _⟩ => ⟨S3300000x32, .f32⟩
  | .hbm, ⟨74, _⟩ => ⟨S3300000x32, .f32⟩
  | .hbm, ⟨75, _⟩ => ⟨S_, .f32⟩
  | .hbm, ⟨76, _⟩ => ⟨S100000x32, .f32⟩
  | .hbm, ⟨77, _⟩ => ⟨S3300000x1, .i32⟩
  | .hbm, ⟨78, _⟩ => ⟨S100000x32, .f32⟩
  | .hbm, ⟨79, _⟩ => ⟨S1x32, .f32⟩
  | .hbm, ⟨80, _⟩ => ⟨S100000x32, .f32⟩
  | .hbm, ⟨81, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.Spec.lean ====
/-
  The two-layer graph convolution both programs compute, as ONE function of the six argument arrays.

  Nodes are numbered 0 … 99999. The edge list `e` (2 × 3200000 node numbers) is extended by one self loop
  per node: `srcIdx e` / `dstIdx e` are the 3300000 source / destination ends. A negative node number
  counts from the end (`wrap`). The degree of a node is the number of extended edges that end in it,
  `dinv` its inverse square root, and an edge's weight `norm` the product of `dinv` at its two ends.
  One layer multiplies the node features by a weight matrix (`mm1`, `mm2`: a plain sum over the inner
  axis), sends along every edge the source's row scaled by the edge's weight, sums what arrives at each
  destination (`agg64`, `agg32`) and adds a bias row; the first layer is followed by `max(·, 0)`.
-/
import proofs.«150718_j78494822302121_1_alg».proof.ReferenceIdeal

noncomputable section

namespace Cert.Gcn

open Idealize.ShloMosaic Cert.ReferenceIdeal

variable {F : FTy → Type} [FloatOps F] [Facts₀]
open Facts₀

/-- An array of node numbers (32-bit integers) of shape `S`. -/
abbrev INodes (F : FTy → Type) (S : Shape) := (⟨S, .i32⟩ : BufTy).Contents (Elt F)
/-- An array of f32 features of shape `S`. -/
abbrev Feat (F : FTy → Type) (S : Shape) := (⟨S, .f32⟩ : BufTy).Contents (Elt F)

/-- The source ends: row 0 of the edge list, then the self loops 0 … 99999. -/
def srcIdx (e : INodes F S2x3200000) : INodes F S3300000 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destination ends: row 1 of the edge list, then the self loops 0 … 99999. -/
def dstIdx (e : INodes F S2x3200000) : INodes F S3300000 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative node number `v` stands for `v + 100000`. -/
def wrap (v : INodes F S3300000) : INodes F S3300000 :=
  select (cmpi .slt v (broadcastInDim S3300000 ![] bcast_S_S3300000 (constantI S_ 32 0#32))) (addi v (broadcastInDim S3300000 ![] bcast_S_S3300000 (constantI S_ 32 100000#32))) v

/-- The inverse square root of each node's in-degree (self loop included): ones summed at the destinations. -/
def dinv (e : INodes F S2x3200000) : Feat F S100000 :=
  Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (dstIdx e)) (broadcastInDim S3300000 ![] bcast_S_S3300000 (constant S_ .f32 0x3F800000#32)))

/-- An edge's weight: `dinv` at its source times `dinv` at its destination. -/
def norm (e : INodes F S2x3200000) : Feat F S3300000 :=
  mulf (Host.gather gather_S100000_S3300000x1_S3300000_n_0_n_n_0_1_1 (dinv e) (broadcastInDim S3300000x1 ![0] bcast_S3300000_S3300000x1_0 (wrap (srcIdx e))))
    (Host.gather gather_S100000_S3300000x1_S3300000_n_0_n_n_0_1_1 (dinv e) (broadcastInDim S3300000x1 ![0] bcast_S3300000_S3300000x1_0 (wrap (dstIdx e))))

/-- Message passing on 64 features: node `d` receives the sum over the edges ending in `d` of the source's row
    times the edge's weight. -/
def agg64 (t : Feat F S100000x64) (e : INodes F S2x3200000) : Feat F S100000x64 :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 (dstIdx e))
    (mulf (Host.gather gather_S100000x64_S3300000x1_S3300000x64_1_0_n_n_0_1_164 t (broadcastInDim S3300000x1 ![0] bcast_S3300000_S3300000x1_0 (wrap (srcIdx e))))
      (broadcastInDim S3300000x64 ![0, 1] bcast_S3300000x1_S3300000x64_0_1 (broadcastInDim S3300000x1 ![0] bcast_S3300000_S3300000x1_0 (norm e))))

/-- Message passing on 32 features. -/
def agg32 (t : Feat F S100000x32) (e : INodes F S2x3200000) : Feat F S100000x32 :=
  Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 (dstIdx e))
    (mulf (Host.gather gather_S100000x32_S3300000x1_S3300000x32_1_0_n_n_0_1_132 t (broadcastInDim S3300000x1 ![0] bcast_S3300000_S3300000x1_0 (wrap (srcIdx e))))
      (broadcastInDim S3300000x32 ![0, 1] bcast_S3300000x1_S3300000x32_0_1 (broadcastInDim S3300000x1 ![0] bcast_S3300000_S3300000x1_0 (norm e))))

/-- The first dense transform: `(x · w) n j = Σ k, x n k * w k j`, 128 → 64. -/
def mm1 (x : Feat F S100000x128) (w : Feat F S128x64) : Feat F S100000x64 :=
  Host.dotGeneral dot_S100000x128_S128x64_S100000x64_1_0_0_1_n_n none x w

/-- The second dense transform, 64 → 32. -/
def mm2 (h : Feat F S100000x64) (w : Feat F S64x32) : Feat F S100000x32 :=
  Host.dotGeneral dot_S100000x64_S64x32_S100000x32_1_0_0_1_n_n none h w

/-- Add the bias row `b` to every node's row, then clamp below at zero. -/
def biasRelu64 (a : Feat F S100000x64) (b : Feat F S1x64) : Feat F S100000x64 :=
  maximumf (addf a (broadcastInDim S100000x64 ![0, 1] bcast_S1x64_S100000x64_0_1 b)) (broadcastInDim S100000x64 ![] bcast_S_S100000x64 (constant S_ .f32 0x00000000#32))

/-- Add the bias row `b` to every node's row. -/
def bias32 (a : Feat F S100000x32) (b : Feat F S1x32) : Feat F S100000x32 :=
  addf a (broadcastInDim S100000x32 ![0, 1] bcast_S1x32_S100000x32_0_1 b)

/-- A bias vector as a one-row matrix. -/
def row64 (b : Feat F S64) : Feat F S1x64 := broadcastInDim S1x64 ![1] bcast_S64_S1x64_1 b
def row32 (b : Feat F S32) : Feat F S1x32 := broadcastInDim S1x32 ![1] bcast_S32_S1x32_1 b

/-- The encoder: two graph convolutions, the first followed by `max(·, 0)`. -/
def out (x : Feat F S100000x128) (w1 : Feat F S128x64) (b1 : Feat F S64) (w2 : Feat F S64x32) (b2 : Feat F S32)
    (e : INodes F S2x3200000) : Feat F S100000x32 :=
  bias32 (agg32 (mm2 (biasRelu64 (agg64 (mm1 x w1) e) (row64 b1)) w2) e) (row32 b2)

end Cert.Gcn

end
-- ==== Proof.RegionMatmul.lean ====
import proofs.«150718_j78494822302121_1_alg».proof.Proof.Gen.KernelIdeal.Frame
import proofs.«150718_j78494822302121_1_alg».proof.Proof.Gen.ReferenceIdeal
import proofs.«150718_j78494822302121_1_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.RegionMatmul

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-!
  The two dense transforms of the kernel, each as ONE whole-array product.

  Pipeline 0 walks 20 points; point `t` multiplies rows `5000·t … 5000·t + 4999` of `x` by all of `W1`
  (the narrowing of both operands to bf16 is the identity on the extended reals) into zeros, and writes the
  5000 × 64 result to the same rows of the output. Row `p`, column `q` of that block is `Σ k, x[5000·t + p, k] · W1[k, q]`,
  which is row `5000·t + p`, column `q` of the whole product `x · W1`: the two sums agree term by term. The 20 row
  blocks tile the 100000 rows and the column axis is whole, so every index of the output is written by the point
  `row / 5000`, and the array ends holding `x · W1`. Pipeline 2 is the same with inner axis 64 and 32 columns.
-/

/-- The zero offsets of a whole-block access, spelt as a constant function. -/
theorem off_zero : (![0, 0] : Fin 2 → Nat) = fun _ => 0 := funext fun a => by
  match a with
  | ⟨0, _⟩ => rfl
  | ⟨1, _⟩ => rfl

/-! # The first dense transform (pipeline 0): 128 → 64 -/

/-! ## One block's product at an index -/

theorem blk0_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blk0_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem blk0_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem blk0_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row `p`, column `q` of one block's product: the sum over the inner axis. -/
theorem pay0_apply (x0 : Vec Ideal S5000x128 .f32) (x1 : Vec Ideal S128x64 .f32) (p : Fin 5000) (q : Fin 64) :
    k0_pay1 (F := Ideal) x0 x1 (ValueIdx.ix2 p q) = ∑ k : Fin 128, x0 (ValueIdx.ix2 p k) * x1 (ValueIdx.ix2 k q) := by
  unfold k0_pay1
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ValueIdx.ix2 p q) ((ValueIdx.contrEquiv1 dot_S5000x128_S128x64_S5000x64_1_0_0_1_n_n 128 rfl rfl).symm k) = ValueIdx.ix2 p k := funext fun a => Fin.ext (by
    match a with
    | ⟨0, _⟩ => exact blk0_lhs_0 _ _
    | ⟨1, _⟩ => exact (blk0_lhs_1 _ _).trans hk)
  have er : dot_S5000x128_S128x64_S5000x64_1_0_0_1_n_n.rhsIdx (ValueIdx.ix2 p q) ((ValueIdx.contrEquiv1 dot_S5000x128_S128x64_S5000x64_1_0_0_1_n_n 128 rfl rfl).symm k) = ValueIdx.ix2 k q := funext fun a => Fin.ext (by
    match a with
    | ⟨0, _⟩ => exact (blk0_rhs_0 _ _).trans hk
    | ⟨1, _⟩ => exact blk0_rhs_1 _ _)
  rw [el, er]
  rfl

/-! ## The whole product at an index -/

theorem ref0_lhs_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem ref0_lhs_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem ref0_rhs_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem ref0_rhs_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- Row `n`, column `q` of the whole product `x · w`: the sum over the inner axis. -/
theorem mm1_apply (x : Cert.Gcn.Feat Ideal Cert.ReferenceIdeal.S100000x128) (w : Cert.Gcn.Feat Ideal Cert.ReferenceIdeal.S128x64) (n : Fin 100000) (q : Fin 64) :
    Cert.Gcn.mm1 (F := Ideal) x w (ValueIdx.ix2 n q) = ∑ k : Fin 128, x (ValueIdx.ix2 n k) * w (ValueIdx.ix2 k q) := by
  unfold Cert.Gcn.mm1
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ValueIdx.ix2 n q) ((ValueIdx.contrEquiv1 Cert.ReferenceIdeal.dot_S100000x128_S128x64_S100000x64_1_0_0_1_n_n 128 rfl rfl).symm k) = ValueIdx.ix2 n k := funext fun a => Fin.ext (by
    match a with
    | ⟨0, _⟩ => exact ref0_lhs_0 _ _
    | ⟨1, _⟩ => exact (ref0_lhs_1 _ _).trans hk)
  have er : Cert.ReferenceIdeal.dot_S100000x128_S128x64_S100000x64_1_0_0_1_n_n.rhsIdx (ValueIdx.ix2 n q) ((ValueIdx.contrEquiv1 Cert.ReferenceIdeal.dot_S100000x128_S128x64_S100000x64_1_0_0_1_n_n 128 rfl rfl).symm k) = ValueIdx.ix2 k q := funext fun a => Fin.ext (by
    match a with
    | ⟨0, _⟩ => exact (ref0_rhs_0 _ _).trans hk
    | ⟨1, _⟩ => exact ref0_rhs_1 _ _)
  rw [el, er]

/-! ## From the blocks to the array -/

/-- The index maps over the grid: the row block of `x` and of the output is the point's number, every column block
    and both of `w`'s block indices are zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One point's block is the block of the whole product at the point's rows: both are the same sum over the inner
    axis once the `x`-block's row `p` is the array's row `5000·T + p` and the `w`-block is all of `w`. -/
theorem block0_eq (x : Cert.Gcn.Feat Ideal Cert.ReferenceIdeal.S100000x128) (w : Cert.Gcn.Feat Ideal Cert.ReferenceIdeal.S128x64)
    (x0 : Vec Ideal S5000x128 .f32) (x1 : Vec Ideal S128x64 .f32) (T : Nat) (hT : T < 20)
    (h0 : ∀ (p : Fin 5000) (k : Fin 128), x0 (ValueIdx.ix2 p k) = x (ValueIdx.ix2 (⟨T * 5000 + 1 * p.val, by omega⟩ : Fin 100000) k))
    (h1 : ∀ (k : Fin 128) (q : Fin 64), x1 (ValueIdx.ix2 k q) = w (ValueIdx.ix2 k q)) (p : Fin 5000) (q : Fin 64) :
    k0_pay1 (F := Ideal) x0 x1 (ValueIdx.ix2 p q)
      = Cert.Gcn.mm1 (F := Ideal) x w (ValueIdx.ix2 (⟨T * 5000 + 1 * p.val, by omega⟩ : Fin 100000) q) := by
  rw [pay0_apply, mm1_apply]
  exact Finset.sum_congr rfl fun k _ => by rw [h0, h1]

/-- What point `t` writes back is block `t` of the whole product of the arrays as the region finds them. -/
theorem flushed0_eq (c : Dev nD) (t : Fin cfg0.N) :
    (dat0 (F := Ideal) V c).flushed 2 t
      = ((cfg0.win 2).blk t).view.read (Elt Ideal) (Cert.Gcn.mm1 (F := Ideal) (V c main_arg0) (V c main_arg1)) := by
  show (cfg0.win 2).cut (grid0.coords t) ((dat0 (F := Ideal) V c).after 2 t) = _
  rw [after0_2]
  unfold out0_2
  rw [View.canon_unit_zero off_zero]
  simp only [View.ld_unit_zero (S := S5000x128) off_zero, View.ld_unit_zero (S := S128x64) off_zero]
  obtain ⟨e0, e1, e2, e3, e4, e5⟩ := idx_facts0 t
  have ht : t.val < 20 := lt_of_lt_of_eq t.isLt N_0
  funext j
  obtain ⟨p, q, rfl⟩ : ∃ (p : Fin 5000) (q : Fin 64), j = ValueIdx.ix2 p q := ⟨j 0, j 1, ValueIdx.eq_ix2 j⟩
  show k0_pay1 (F := Ideal) (iblk0 V c 0 t) (iblk0 V c 1 t) (ValueIdx.ix2 p q)
    = Cert.Gcn.mm1 (F := Ideal) (V c main_arg0) (V c main_arg1) (((cfg0.win 2).blk t).view.emb (ValueIdx.ix2 p q))
  have hout : ((cfg0.win 2).blk t).view.emb (ValueIdx.ix2 p q) = ValueIdx.ix2 (⟨t.val * 5000 + 1 * p.val, by omega⟩ : Fin 100000) q := by
    funext a; apply Fin.ext
    match a with
    | ⟨0, _⟩ => show win0_2.index t (0 : Fin 2) * 5000 + 1 * p.val = t.val * 5000 + 1 * p.val; rw [e4]
    | ⟨1, _⟩ => show win0_2.index t (1 : Fin 2) * 64 + 1 * q.val = q.val; rw [e5]; omega
  rw [hout]
  refine block0_eq (V c main_arg0) (V c main_arg1) _ _ t.val ht (fun p k => ?_) (fun k q => ?_) p q
  · show V c main_arg0 (((cfg0.win 0).blk t).view.emb (ValueIdx.ix2 p k)) = V c main_arg0 _
    refine congrArg _ ?_
    funext a; apply Fin.ext
    match a with
    | ⟨0, _⟩ => show win0_0.index t (0 : Fin 2) * 5000 + 1 * p.val = t.val * 5000 + 1 * p.val; rw [e0]
    | ⟨1, _⟩ => show win0_0.index t (1 : Fin 2) * 128 + 1 * k.val = k.val; rw [e1]; omega
  · show V c main_arg1 (((cfg0.win 1).blk t).view.emb (ValueIdx.ix2 k q)) = V c main_arg1 _
    refine congrArg _ ?_
    funext a; apply Fin.ext
    match a with
    | ⟨0, _⟩ => show win0_1.index t (0 : Fin 2) * 128 + 1 * k.val = k.val; rw [e2]; omega
    | ⟨1, _⟩ => show win0_1.index t (1 : Fin 2) * 64 + 1 * q.val = q.val; rw [e3]; omega

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- Every index of the output array is in some point's block: row `r` in that of point `r / 5000`
    (20 · 5000 = 100000), the column axis whole. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 5000 < cfg0.N := lt_of_lt_of_eq (by omega : (i 0).val / 5000 < 20) N_0.symm
  refine ⟨⟨(i 0).val / 5000, hlt⟩, flush0_2 _, ?_⟩
  obtain ⟨e0, e1, e2, e3, e4, e5⟩ := idx_facts0 ⟨(i 0).val / 5000, hlt⟩
  rw [mem_blk0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 64 ≤ (i 1).val ∧ (i 1).val < win0_2.index ⟨(i 0).val / 5000, hlt⟩ (1 : Fin 2) * 64 + 64
    rw [e5]; omega

/-- After pipeline 0 its output array is the whole product `x · W1`. -/
theorem final0 (c : Dev nD) :
    (dat0 (F := Ideal) V c).arrAt 2 cfg0.N = Cert.Gcn.mm1 (F := Ideal) (V c main_arg0) (V c main_arg1) :=
  (dat0 (F := Ideal) V c).arrAt_eq_of_cover 2 (Cert.Gcn.mm1 (F := Ideal) (V c main_arg0) (V c main_arg1))
    (fun t _ => flushed0_eq V c t) cover0

/-! # The second dense transform (pipeline 2): 64 → 32 -/

/-! ## One block's product at an index -/

theorem blk2_lhs_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem blk2_lhs_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem blk2_rhs_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem blk2_rhs_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Row `p`, column `q` of one block's product: the sum over the inner axis (the body's cast of the block's
    shape to itself changes nothing). -/
theorem pay2_apply (x0 : Vec Ideal S5000x64 .f32) (x1 : Vec Ideal S64x32 .f32) (p : Fin 5000) (q : Fin 32) :
    k2_pay1 (F := Ideal) x0 x1 (ValueIdx.ix2 p q) = ∑ k : Fin 64, x0 (ValueIdx.ix2 p k) * x1 (ValueIdx.ix2 k q) := by
  unfold k2_pay1
  simp only [matmul]
  rw [shapeCast_self, Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ValueIdx.ix2 p q) ((ValueIdx.contrEquiv1 dot_S5000x64_S64x32_S5000x32_1_0_0_1_n_n 64 rfl rfl).symm k) = ValueIdx.ix2 p k := funext fun a => Fin.ext (by
    match a with
    | ⟨0, _⟩ => exact blk2_lhs_0 _ _
    | ⟨1, _⟩ => exact (blk2_lhs_1 _ _).trans hk)
  have er : dot_S5000x64_S64x32_S5000x32_1_0_0_1_n_n.rhsIdx (ValueIdx.ix2 p q) ((ValueIdx.contrEquiv1 dot_S5000x64_S64x32_S5000x32_1_0_0_1_n_n 64 rfl rfl).symm k) = ValueIdx.ix2 k q := funext fun a => Fin.ext (by
    match a with
    | ⟨0, _⟩ => exact (blk2_rhs_0 _ _).trans hk
    | ⟨1, _⟩ => exact blk2_rhs_1 _ _)
  rw [el, er]
  rfl

/-! ## The whole product at an index -/

theorem ref2_lhs_0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x32_S100000x32_1_0_0_1_n_n.lhsBatch by decide), dif_pos (show (0 : Fin Cert.ReferenceIdeal.S100000x64.rank) ∈ Cert.ReferenceIdeal.dot_S100000x64_S64x32_S100000x32_1_0_0_1_n_n.lhsNonContracting by decide)]
  rfl
theorem ref2_lhs_1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 1).val = (q ⟨0, by decide⟩).val :=
  Cert.ReferenceIdeal.dot_S100000x64_S64x32_S100000x32_1_0_0_1_n_n.lhsIdx_val_of_single rfl i q
theorem ref2_rhs_0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 0).val = (q ⟨0, by decide⟩).val :=
  Cert.ReferenceIdeal.dot_S100000x64_S64x32_S100000x32_1_0_0_1_n_n.rhsIdx_val_of_single rfl i q
theorem ref2_rhs_1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 1).val = (i 1).val := by
  unfold DotDims.rhsIdx
  rw [dif_neg (show ¬(1 : Fin Cert.ReferenceIdeal.S64x32.rank) ∈ Cert.ReferenceIdeal.dot_S100000x64_S64x32_S100000x32_1_0_0_1_n_n.rhsBatch by decide), dif_pos (show (1 : Fin Cert.ReferenceIdeal.S64x32.rank) ∈ Cert.ReferenceIdeal.dot_S100000x64_S64x32_S100000x32_1_0_0_1_n_n.rhsNonContracting by decide)]
  rfl

/-- Row `n`, column `q` of the whole product `h · w`: the sum over the inner axis. -/
theorem mm2_apply (h : Cert.Gcn.Feat Ideal Cert.ReferenceIdeal.S100000x64) (w : Cert.Gcn.Feat Ideal Cert.ReferenceIdeal.S64x32) (n : Fin 100000) (q : Fin 32) :
    Cert.Gcn.mm2 (F := Ideal) h w (ValueIdx.ix2 n q) = ∑ k : Fin 64, h (ValueIdx.ix2 n k) * w (ValueIdx.ix2 k q) := by
  unfold Cert.Gcn.mm2
  simp only [Host.dotGeneral]
  rw [Ideal.dotGeneral_apply, ← Equiv.sum_comp (ValueIdx.contrEquiv1 Cert.ReferenceIdeal.dot_S100000x64_S64x32_S100000x32_1_0_0_1_n_n 64 rfl rfl).symm]
  refine Finset.sum_congr rfl fun k _ => ?_
  have hk := ValueIdx.contrEquiv1_symm_val Cert.ReferenceIdeal.dot_S100000x64_S64x32_S100000x32_1_0_0_1_n_n 64 rfl rfl k
  have el : Cert.ReferenceIdeal.dot_S100000x64_S64x32_S100000x32_1_0_0_1_n_n.lhsIdx (ValueIdx.ix2 n q) ((ValueIdx.contrEquiv1 Cert.ReferenceIdeal.dot_S100000x64_S64x32_S100000x32_1_0_0_1_n_n 64 rfl rfl).symm k) = ValueIdx.ix2 n k := funext fun a => Fin.ext (by
    match a with
    | ⟨0, _⟩ => exact ref2_lhs_0 _ _
    | ⟨1, _⟩ => exact (ref2_lhs_1 _ _).trans hk)
  have er : Cert.ReferenceIdeal.dot_S100000x64_S64x32_S100000x32_1_0_0_1_n_n.rhsIdx (ValueIdx.ix2 n q) ((ValueIdx.contrEquiv1 Cert.ReferenceIdeal.dot_S100000x64_S64x32_S100000x32_1_0_0_1_n_n 64 rfl rfl).symm k) = ValueIdx.ix2 k q := funext fun a => Fin.ext (by
    match a with
    | ⟨0, _⟩ => exact (ref2_rhs_0 _ _).trans hk
    | ⟨1, _⟩ => exact ref2_rhs_1 _ _)
  rw [el, er]

/-! ## From the blocks to the array -/

/-- The index maps over the grid: the row block of `h` and of the output is the point's number, every column block
    and both of `w`'s block indices are zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One point's block is the block of the whole product at the point's rows: both are the same sum over the inner
    axis once the `h`-block's row `p` is the array's row `5000·T + p` and the `w`-block is all of `w`. -/
theorem block2_eq (h : Cert.Gcn.Feat Ideal Cert.ReferenceIdeal.S100000x64) (w : Cert.Gcn.Feat Ideal Cert.ReferenceIdeal.S64x32)
    (x0 : Vec Ideal S5000x64 .f32) (x1 : Vec Ideal S64x32 .f32) (T : Nat) (hT : T < 20)
    (h0 : ∀ (p : Fin 5000) (k : Fin 64), x0 (ValueIdx.ix2 p k) = h (ValueIdx.ix2 (⟨T * 5000 + 1 * p.val, by omega⟩ : Fin 100000) k))
    (h1 : ∀ (k : Fin 64) (q : Fin 32), x1 (ValueIdx.ix2 k q) = w (ValueIdx.ix2 k q)) (p : Fin 5000) (q : Fin 32) :
    k2_pay1 (F := Ideal) x0 x1 (ValueIdx.ix2 p q)
      = Cert.Gcn.mm2 (F := Ideal) h w (ValueIdx.ix2 (⟨T * 5000 + 1 * p.val, by omega⟩ : Fin 100000) q) := by
  rw [pay2_apply, mm2_apply]
  exact Finset.sum_congr rfl fun k _ => by rw [h0, h1]

/-- What point `t` writes back is block `t` of the whole product of the arrays as the region finds them. -/
theorem flushed2_eq (c : Dev nD) (t : Fin cfg2.N) :
    (dat2 (F := Ideal) V c).flushed 2 t
      = ((cfg2.win 2).blk t).view.read (Elt Ideal) (Cert.Gcn.mm2 (F := Ideal) (V c main_v42) (V c main_arg3)) := by
  show (cfg2.win 2).cut (grid2.coords t) ((dat2 (F := Ideal) V c).after 2 t) = _
  rw [after2_2]
  unfold out2_2
  rw [View.canon_unit_zero off_zero]
  simp only [View.ld_unit_zero (S := S5000x64) off_zero, View.ld_unit_zero (S := S64x32) off_zero]
  obtain ⟨e0, e1, e2, e3, e4, e5⟩ := idx_facts2 t
  have ht : t.val < 20 := lt_of_lt_of_eq t.isLt N_2
  funext j
  obtain ⟨p, q, rfl⟩ : ∃ (p : Fin 5000) (q : Fin 32), j = ValueIdx.ix2 p q := ⟨j 0, j 1, ValueIdx.eq_ix2 j⟩
  show k2_pay1 (F := Ideal) (iblk2 V c 0 t) (iblk2 V c 1 t) (ValueIdx.ix2 p q)
    = Cert.Gcn.mm2 (F := Ideal) (V c main_v42) (V c main_arg3) (((cfg2.win 2).blk t).view.emb (ValueIdx.ix2 p q))
  have hout : ((cfg2.win 2).blk t).view.emb (ValueIdx.ix2 p q) = ValueIdx.ix2 (⟨t.val * 5000 + 1 * p.val, by omega⟩ : Fin 100000) q := by
    funext a; apply Fin.ext
    match a with
    | ⟨0, _⟩ => show win2_2.index t (0 : Fin 2) * 5000 + 1 * p.val = t.val * 5000 + 1 * p.val; rw [e4]
    | ⟨1, _⟩ => show win2_2.index t (1 : Fin 2) * 32 + 1 * q.val = q.val; rw [e5]; omega
  rw [hout]
  refine block2_eq (V c main_v42) (V c main_arg3) _ _ t.val ht (fun p k => ?_) (fun k q => ?_) p q
  · show V c main_v42 (((cfg2.win 0).blk t).view.emb (ValueIdx.ix2 p k)) = V c main_v42 _
    refine congrArg _ ?_
    funext a; apply Fin.ext
    match a with
    | ⟨0, _⟩ => show win2_0.index t (0 : Fin 2) * 5000 + 1 * p.val = t.val * 5000 + 1 * p.val; rw [e0]
    | ⟨1, _⟩ => show win2_0.index t (1 : Fin 2) * 64 + 1 * k.val = k.val; rw [e1]; omega
  · show V c main_arg3 (((cfg2.win 1).blk t).view.emb (ValueIdx.ix2 k q)) = V c main_arg3 _
    refine congrArg _ ?_
    funext a; apply Fin.ext
    match a with
    | ⟨0, _⟩ => show win2_1.index t (0 : Fin 2) * 64 + 1 * k.val = k.val; rw [e2]; omega
    | ⟨1, _⟩ => show win2_1.index t (1 : Fin 2) * 32 + 1 * q.val = q.val; rw [e3]; omega

/-- An index of the output array is in point `t`'s block iff each coordinate is in the block's range on its axis. -/
theorem mem_blk2 (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v43).slice (win2_2.rect t)).set ↔ _
  rw [View.set_slice_whole, Rect.mem_set_unit]
  exact Iff.rfl

/-- Every index of the output array is in some point's block: row `r` in that of point `r / 5000`
    (20 · 5000 = 100000), the column axis whole. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hlt : (i 0).val / 5000 < cfg2.N := lt_of_lt_of_eq (by omega : (i 0).val / 5000 < 20) N_2.symm
  refine ⟨⟨(i 0).val / 5000, hlt⟩, flush2_2 _, ?_⟩
  obtain ⟨e0, e1, e2, e3, e4, e5⟩ := idx_facts2 ⟨(i 0).val / 5000, hlt⟩
  rw [mem_blk2]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 32 ≤ (i 1).val ∧ (i 1).val < win2_2.index ⟨(i 0).val / 5000, hlt⟩ (1 : Fin 2) * 32 + 32
    rw [e5]; omega

/-- After pipeline 2 its output array is the whole product `h · W2`. -/
theorem final2 (c : Dev nD) :
    (dat2 (F := Ideal) V c).arrAt 2 cfg2.N = Cert.Gcn.mm2 (F := Ideal) (V c main_v42) (V c main_arg3) :=
  (dat2 (F := Ideal) V c).arrAt_eq_of_cover 2 (Cert.Gcn.mm2 (F := Ideal) (V c main_v42) (V c main_arg3))
    (fun t _ => flushed2_eq V c t) cover2

end Cert.KernelIdeal.RegionMatmul

end
-- ==== Proof.RegionBias.lean ====
import proofs.«150718_j78494822302121_1_alg».proof.Proof.Gen.KernelIdeal.Frame
import proofs.«150718_j78494822302121_1_alg».proof.Proof.Gen.ReferenceIdeal
import proofs.«150718_j78494822302121_1_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.RegionBias

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-!
  The two bias pipelines, from blocks to the array.

  Each runs over 20 points; point `t` loads rows `5000 t … 5000 t + 4999` of the feature array and the whole
  one-row bias array, adds the bias row to every loaded row (pipeline 1 then takes the maximum with zero), and
  writes the result back to the same rows of the output array. So at row `n`, column `j` the output holds
  `a[n, j] + b[0, j]` (pipeline 1: `max (a[n, j] + b[0, j]) 0`), which is the reference's function read at that index;
  the 20 blocks tile the 100000 rows, so the whole output array is that function.
-/

/-- The zero offsets of a whole-block access, however they are spelt. -/
theorem zeros2 : (![0, 0] : Fin 2 → Nat) = fun _ => 0 := funext fun a => by fin_cases a <;> rfl

/-! ## Pipeline 1: add the bias row, clamp below at zero -/

/-- Pipeline 1's index maps over its 20 points: the feature window and the output window sit at block row
    `t`, block column 0; the bias window stays at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Pipeline 1's payload at row `p`, column `q` of a block: the feature there plus the bias row's entry at `q`,
    or zero if that is larger. -/
theorem pay1_apply (x0 : Vec Ideal S5000x64 .f32) (x1 : Vec Ideal S1x64 .f32) (p : Fin 5000) (q : Fin 64) :
    k1_pay1 x0 x1 (ValueIdx.ix2 p q)
      = max (x0 (ValueIdx.ix2 p q) + x1 (ValueIdx.ix2 (0 : Fin 1) q)) (Ideal.ofBits .f32 0x00000000#32) := by
  unfold k1_pay1
  rw [ValueIdx.maximumf_apply, ValueIdx.addf_apply, ValueIdx.broadcast_apply, shapeCast_self, shapeCast_self,
    broadcastTo_apply x1 broadcasts_S1x64_S5000x64 (ValueIdx.ix2 p q) (ValueIdx.ix2 (0 : Fin 1) q)
      (fun a => by match a with | ⟨0, _⟩ => rfl | ⟨1, _⟩ => rfl)]
  rfl

/-- The reference's biased and clamped array at row `n`, column `q`. -/
theorem biasRelu64_apply (a : Cert.Gcn.Feat Ideal Cert.ReferenceIdeal.S100000x64) (b : Cert.Gcn.Feat Ideal Cert.ReferenceIdeal.S1x64)
    (n : Fin 100000) (q : Fin 64) :
    Cert.Gcn.biasRelu64 (F := Ideal) a b (ValueIdx.ix2 n q)
      = max (a (ValueIdx.ix2 n q) + b (ValueIdx.ix2 (0 : Fin 1) q)) (Ideal.ofBits .f32 0x00000000#32) := by
  unfold Cert.Gcn.biasRelu64
  rw [ValueIdx.maximumf_apply, ValueIdx.addf_apply,
    broadcastInDim_apply _ _ b (ValueIdx.ix2 n q) (ValueIdx.ix2 (0 : Fin 1) q)
      (fun a => by match a with | ⟨0, _⟩ => rfl | ⟨1, _⟩ => rfl),
    broadcastInDim_apply _ _ (constant (F := Ideal) Cert.ReferenceIdeal.S_ .f32 0x00000000#32) (ValueIdx.ix2 n q) ValueIdx.ix0
      (fun a => a.elim0),
    ValueIdx.constant_apply]

/-- What point `t` of pipeline 1 writes back is block `t` of the reference's biased and clamped array, taken of
    the arrays as the region finds them. -/
theorem flushed1_eq (c : Dev nD) (t : Fin cfg1.N) :
    (dat1 (F := Ideal) V c).flushed 2 t
      = ((cfg1.win 2).blk t).view.read (Elt Ideal) (Cert.Gcn.biasRelu64 (F := Ideal) (V c main_v40) (V c main_v41)) := by
  show (cfg1.win 2).cut (grid1.coords t) ((dat1 V c).after 2 t) = _
  rw [after1_2]
  unfold out1_2
  rw [View.canon_unit_zero zeros2]
  simp only [View.ld_unit_zero (S := S5000x64) zeros2, View.ld_unit_zero (S := S1x64) zeros2]
  obtain ⟨e00, e01, e10, e11, e20, e21⟩ := idx1 t
  have ht : t.val < 20 := t.isLt.trans_eq N_1
  funext j
  obtain ⟨p, q, rfl⟩ : ∃ (p : Fin 5000) (q : Fin 64), j = ValueIdx.ix2 p q := ⟨j 0, j 1, ValueIdx.eq_ix2 j⟩
  have hp : p.val < 5000 := p.isLt
  -- row `p` of block `t` is row `5000 t + p` of the array
  have h0 : ((cfg1.win 0).blk t).view.emb (ValueIdx.ix2 p q)
      = ValueIdx.ix2 (⟨t.val * 5000 + p.val, by omega⟩ : Fin 100000) q := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * q.val = q.val; omega
  have h2 : ((cfg1.win 2).blk t).view.emb (ValueIdx.ix2 p q)
      = ValueIdx.ix2 (⟨t.val * 5000 + p.val, by omega⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  -- the bias window's one block is the whole bias row
  have h1 : ((cfg1.win 1).blk t).view.emb (ValueIdx.ix2 (0 : Fin 1) q) = ValueIdx.ix2 (0 : Fin 1) q := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  show k1_pay1 (iblk1 V c 0 t) (iblk1 V c 1 t) (ValueIdx.ix2 p q)
    = Cert.Gcn.biasRelu64 (F := Ideal) (V c main_v40) (V c main_v41) (((cfg1.win 2).blk t).view.emb (ValueIdx.ix2 p q))
  -- each input block read at an index is its array read at the embedded index
  have r0 : iblk1 V c 0 t (ValueIdx.ix2 p q)
      = V c main_v40 (ValueIdx.ix2 (⟨t.val * 5000 + p.val, by omega⟩ : Fin 100000) q) := congrArg (V c main_v40) h0
  have r1 : iblk1 V c 1 t (ValueIdx.ix2 (0 : Fin 1) q) = V c main_v41 (ValueIdx.ix2 (0 : Fin 1) q) :=
    congrArg (V c main_v41) h1
  rw [pay1_apply, h2, biasRelu64_apply, r0, r1]

/-- Row `r`, column `k` of the output array lies in point `t`'s block iff each coordinate is in the block's range. -/
theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v42).slice (win1_2.rect t)).set ↔ _
  rw [View.set_slice_whole, Rect.mem_set_unit]
  exact Iff.rfl

/-- The 20 blocks of 5000 rows tile the 100000 rows, the column axis whole: row `r` is in the block of point `r / 5000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hlt : (i 0).val / 5000 < grid1.N := by rw [N_1]; omega
  refine ⟨⟨(i 0).val / 5000, hlt⟩, flush1_2 _, ?_⟩
  rw [mem_blk1]
  obtain ⟨e00, e01, e10, e11, e20, e21⟩ := idx1 ⟨(i 0).val / 5000, hlt⟩
  have e20' : win1_2.index ⟨(i 0).val / 5000, hlt⟩ (0 : Fin 2) = (i 0).val / 5000 := e20
  intro a
  match a with
  | ⟨0, _⟩ =>
    show win1_2.index _ (0 : Fin 2) * 5000 ≤ (i 0).val ∧ (i 0).val < win1_2.index _ (0 : Fin 2) * 5000 + 5000
    rw [e20']; omega
  | ⟨1, _⟩ =>
    show win1_2.index _ (1 : Fin 2) * 64 ≤ (i 1).val ∧ (i 1).val < win1_2.index _ (1 : Fin 2) * 64 + 64
    rw [e21]; omega

/-- After pipeline 1 its output array is the reference's biased and clamped array of the two arrays the region finds. -/
theorem final1 (c : Dev nD) :
    (dat1 (F := Ideal) V c).arrAt 2 cfg1.N = Cert.Gcn.biasRelu64 (F := Ideal) (V c main_v40) (V c main_v41) :=
  (dat1 (F := Ideal) V c).arrAt_eq_of_cover 2 (Cert.Gcn.biasRelu64 (F := Ideal) (V c main_v40) (V c main_v41))
    (fun t _ => flushed1_eq V c t) cover1

/-! ## Pipeline 3: add the bias row -/

/-- Pipeline 3's index maps over its 20 points: the feature window and the output window sit at block row
    `t`, block column 0; the bias window stays at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Pipeline 3's payload at row `p`, column `q` of a block: the feature there plus the bias row's entry at `q`. -/
theorem pay3_apply (x0 : Vec Ideal S5000x32 .f32) (x1 : Vec Ideal S1x32 .f32) (p : Fin 5000) (q : Fin 32) :
    k3_pay1 x0 x1 (ValueIdx.ix2 p q) = x0 (ValueIdx.ix2 p q) + x1 (ValueIdx.ix2 (0 : Fin 1) q) := by
  unfold k3_pay1
  rw [ValueIdx.addf_apply, shapeCast_self, shapeCast_self,
    broadcastTo_apply x1 broadcasts_S1x32_S5000x32 (ValueIdx.ix2 p q) (ValueIdx.ix2 (0 : Fin 1) q)
      (fun a => by match a with | ⟨0, _⟩ => rfl | ⟨1, _⟩ => rfl)]

/-- The reference's biased array at row `n`, column `q`. -/
theorem bias32_apply (a : Cert.Gcn.Feat Ideal Cert.ReferenceIdeal.S100000x32) (b : Cert.Gcn.Feat Ideal Cert.ReferenceIdeal.S1x32)
    (n : Fin 100000) (q : Fin 32) :
    Cert.Gcn.bias32 (F := Ideal) a b (ValueIdx.ix2 n q) = a (ValueIdx.ix2 n q) + b (ValueIdx.ix2 (0 : Fin 1) q) := by
  unfold Cert.Gcn.bias32
  rw [ValueIdx.addf_apply,
    broadcastInDim_apply _ _ b (ValueIdx.ix2 n q) (ValueIdx.ix2 (0 : Fin 1) q)
      (fun a => by match a with | ⟨0, _⟩ => rfl | ⟨1, _⟩ => rfl)]

/-- What point `t` of pipeline 3 writes back is block `t` of the reference's biased array, taken of the
    arrays as the region finds them. -/
theorem flushed3_eq (c : Dev nD) (t : Fin cfg3.N) :
    (dat3 (F := Ideal) V c).flushed 2 t
      = ((cfg3.win 2).blk t).view.read (Elt Ideal) (Cert.Gcn.bias32 (F := Ideal) (V c main_v56) (V c main_v57)) := by
  show (cfg3.win 2).cut (grid3.coords t) ((dat3 V c).after 2 t) = _
  rw [after3_2]
  unfold out3_2
  rw [View.canon_unit_zero zeros2]
  simp only [View.ld_unit_zero (S := S5000x32) zeros2, View.ld_unit_zero (S := S1x32) zeros2]
  obtain ⟨e00, e01, e10, e11, e20, e21⟩ := idx3 t
  have ht : t.val < 20 := t.isLt.trans_eq N_3
  funext j
  obtain ⟨p, q, rfl⟩ : ∃ (p : Fin 5000) (q : Fin 32), j = ValueIdx.ix2 p q := ⟨j 0, j 1, ValueIdx.eq_ix2 j⟩
  have hp : p.val < 5000 := p.isLt
  -- row `p` of block `t` is row `5000 t + p` of the array
  have h0 : ((cfg3.win 0).blk t).view.emb (ValueIdx.ix2 p q)
      = ValueIdx.ix2 (⟨t.val * 5000 + p.val, by omega⟩ : Fin 100000) q := by
    funext a; apply Fin.ext
    match a with
    | ⟨0, _⟩ => show win3_0.index t (0 : Fin 2) * 5000 + 1 * p.val = t.val * 5000 + p.val; omega
    | ⟨1, _⟩ => show win3_0.index t (1 : Fin 2) * 32 + 1 * q.val = q.val; omega
  have h2 : ((cfg3.win 2).blk t).view.emb (ValueIdx.ix2 p q)
      = ValueIdx.ix2 (⟨t.val * 5000 + p.val, by omega⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 32 + 1 * q.val = q.val; omega
  -- the bias window's one block is the whole bias row
  have h1 : ((cfg3.win 1).blk t).view.emb (ValueIdx.ix2 (0 : Fin 1) q) = ValueIdx.ix2 (0 : Fin 1) q := by
    funext a; apply Fin.ext
    match a with
    | ⟨0, _⟩ => show win3_1.index t (0 : Fin 2) * 1 + 1 * 0 = 0; omega
    | ⟨1, _⟩ => show win3_1.index t (1 : Fin 2) * 32 + 1 * q.val = q.val; omega
  show k3_pay1 (iblk3 V c 0 t) (iblk3 V c 1 t) (ValueIdx.ix2 p q)
    = Cert.Gcn.bias32 (F := Ideal) (V c main_v56) (V c main_v57) (((cfg3.win 2).blk t).view.emb (ValueIdx.ix2 p q))
  -- each input block read at an index is its array read at the embedded index
  have r0 : iblk3 V c 0 t (ValueIdx.ix2 p q)
      = V c main_v56 (ValueIdx.ix2 (⟨t.val * 5000 + p.val, by omega⟩ : Fin 100000) q) := congrArg (V c main_v56) h0
  have r1 : iblk3 V c 1 t (ValueIdx.ix2 (0 : Fin 1) q) = V c main_v57 (ValueIdx.ix2 (0 : Fin 1) q) :=
    congrArg (V c main_v57) h1
  rw [pay3_apply, h2, bias32_apply, r0, r1]

/-- Row `r`, column `k` of the output array lies in point `t`'s block iff each coordinate is in the block's range. -/
theorem mem_blk3 (t : Fin cfg3.N) (i : S100000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v58).slice (win3_2.rect t)).set ↔ _
  rw [View.set_slice_whole, Rect.mem_set_unit]
  exact Iff.rfl

/-- The 20 blocks of 5000 rows tile the 100000 rows, the column axis whole: row `r` is in the block of point `r / 5000`. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hlt : (i 0).val / 5000 < grid3.N := by rw [N_3]; omega
  refine ⟨⟨(i 0).val / 5000, hlt⟩, flush3_2 _, ?_⟩
  rw [mem_blk3]
  obtain ⟨e00, e01, e10, e11, e20, e21⟩ := idx3 ⟨(i 0).val / 5000, hlt⟩
  have e20' : win3_2.index ⟨(i 0).val / 5000, hlt⟩ (0 : Fin 2) = (i 0).val / 5000 := e20
  intro a
  match a with
  | ⟨0, _⟩ =>
    show win3_2.index _ (0 : Fin 2) * 5000 ≤ (i 0).val ∧ (i 0).val < win3_2.index _ (0 : Fin 2) * 5000 + 5000
    rw [e20']; omega
  | ⟨1, _⟩ =>
    show win3_2.index _ (1 : Fin 2) * 32 ≤ (i 1).val ∧ (i 1).val < win3_2.index _ (1 : Fin 2) * 32 + 32
    rw [e21]; omega

/-- After pipeline 3 its output array is the reference's biased array of the two arrays the region finds. -/
theorem final3 (c : Dev nD) :
    (dat3 (F := Ideal) V c).arrAt 2 cfg3.N = Cert.Gcn.bias32 (F := Ideal) (V c main_v56) (V c main_v57) :=
  (dat3 (F := Ideal) V c).arrAt_eq_of_cover 2 (Cert.Gcn.bias32 (F := Ideal) (V c main_v56) (V c main_v57))
    (fun t _ => flushed3_eq V c t) cover3

end Cert.KernelIdeal.RegionBias

end
-- ==== Proof.Fold.lean ====
/-
  The kernel program's result, read through its run: host operations compute the edge ends and the edge
  weights, four grid kernels do the two dense transforms and the two bias passes, and host operations in
  between pass the messages along the edges. Boundary by boundary the buffers hold the pieces of
  `Cert.Gcn.out`; at the end the result buffer holds `Cert.Gcn.out` of the six argument arrays.
-/
import proofs.«150718_j78494822302121_1_alg».proof.Proof.RegionMatmul
import proofs.«150718_j78494822302121_1_alg».proof.Proof.RegionBias
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

/-- What is left of a host stretch's value inside a concatenation's operand list: each operation's result at its own
    buffer is its function's value, at another buffer what was there. -/
local macro "host_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable (m : (ℓ : Loc nD τ sig) → Buf (Elt Ideal) ℓ) (ρ : Dev nD → PrngReg)

/-! ## The pieces, as functions of the argument arrays -/

/-- The first dense transform `x · W1`. -/
abbrev t1 (c : Dev nD) := Cert.Gcn.mm1 (F := Ideal) (m ((c.tc : Thread nD τ).loc main_arg0)) (m ((c.tc : Thread nD τ).loc main_arg1))
/-- Its messages summed at the destinations. -/
abbrev a1 (c : Dev nD) := Cert.Gcn.agg64 (F := Ideal) (t1 m c) (m ((c.tc : Thread nD τ).loc main_arg5))
/-- The hidden features: bias added, clamped below at zero. -/
abbrev hid (c : Dev nD) := Cert.Gcn.biasRelu64 (F := Ideal) (a1 m c) (Cert.Gcn.row64 (m ((c.tc : Thread nD τ).loc main_arg2)))
/-- The second dense transform `h · W2`. -/
abbrev t2 (c : Dev nD) := Cert.Gcn.mm2 (F := Ideal) (hid m c) (m ((c.tc : Thread nD τ).loc main_arg3))
/-- Its messages summed at the destinations. -/
abbrev a2 (c : Dev nD) := Cert.Gcn.agg32 (F := Ideal) (t2 m c) (m ((c.tc : Thread nD τ).loc main_arg5))

/-! ## A bias vector reshaped to one row is the vector along the columns -/

theorem row64_reshape (b : Cert.Gcn.Feat Ideal Cert.ReferenceIdeal.S64) (h : Cert.ReferenceIdeal.S64.ShapeCasts Cert.ReferenceIdeal.S1x64) :
    shapeCast Cert.ReferenceIdeal.S1x64 b h = Cert.Gcn.row64 (F := Ideal) b := by
  funext j
  unfold Cert.Gcn.row64
  rw [shapeCast_addUnit_apply (n := 1) (d := ![64]) b h j]
  exact (broadcastInDim_apply _ _ b j (fun a => j a.succ) (fun a => by
    match a with
    | ⟨0, _⟩ => rfl)).symm

theorem row32_reshape (b : Cert.Gcn.Feat Ideal Cert.ReferenceIdeal.S32) (h : Cert.ReferenceIdeal.S32.ShapeCasts Cert.ReferenceIdeal.S1x32) :
    shapeCast Cert.ReferenceIdeal.S1x32 b h = Cert.Gcn.row32 (F := Ideal) b := by
  funext j
  unfold Cert.Gcn.row32
  rw [shapeCast_addUnit_apply (n := 1) (d := ![32]) b h j]
  exact (broadcastInDim_apply _ _ b j (fun a => j a.succ) (fun a => by
    match a with
    | ⟨0, _⟩ => rfl)).symm

/-! ## Before the first kernel: the edge ends, the edge weights; the arguments untouched -/

theorem W1_src (c : Dev nD) : W1 m ρ c (Proc.devRef .tc main_v3) = Cert.Gcn.srcIdx (F := Ideal) (m ((c.tc : Thread nD τ).loc main_arg5)) := by
  show StableHlo.after hostOps0 (W0 m ρ c) (Proc.devRef .tc main_v3) = _
  after_results
  rfl

theorem W1_dst (c : Dev nD) : W1 m ρ c (Proc.devRef .tc main_v6) = Cert.Gcn.dstIdx (F := Ideal) (m ((c.tc : Thread nD τ).loc main_arg5)) := by
  show StableHlo.after hostOps0 (W0 m ρ c) (Proc.devRef .tc main_v6) = _
  after_results
  rfl

set_option maxHeartbeats 4000000 in
theorem W1_norm (c : Dev nD) : W1 m ρ c (Proc.devRef .tc main_v26) = Cert.Gcn.norm (F := Ideal) (m ((c.tc : Thread nD τ).loc main_arg5)) := by
  show StableHlo.after hostOps0 (W0 m ρ c) (Proc.devRef .tc main_v26) = _
  after_results_simp
  host_rest
  rfl

theorem W1_arg0 (c : Dev nD) : W1 m ρ c (Proc.devRef .tc main_arg0) = (m ((c.tc : Thread nD τ).loc main_arg0)) := by
  show StableHlo.after hostOps0 (W0 m ρ c) (Proc.devRef .tc main_arg0) = _
  after_results_simp

theorem W1_arg1 (c : Dev nD) : W1 m ρ c (Proc.devRef .tc main_arg1) = (m ((c.tc : Thread nD τ).loc main_arg1)) := by
  show StableHlo.after hostOps0 (W0 m ρ c) (Proc.devRef .tc main_arg1) = _
  after_results_simp

theorem W1_arg2 (c : Dev nD) : W1 m ρ c (Proc.devRef .tc main_arg2) = (m ((c.tc : Thread nD τ).loc main_arg2)) := by
  show StableHlo.after hostOps0 (W0 m ρ c) (Proc.devRef .tc main_arg2) = _
  after_results_simp

theorem W1_arg3 (c : Dev nD) : W1 m ρ c (Proc.devRef .tc main_arg3) = (m ((c.tc : Thread nD τ).loc main_arg3)) := by
  show StableHlo.after hostOps0 (W0 m ρ c) (Proc.devRef .tc main_arg3) = _
  after_results_simp

theorem W1_arg4 (c : Dev nD) : W1 m ρ c (Proc.devRef .tc main_arg4) = (m ((c.tc : Thread nD τ).loc main_arg4)) := by
  show StableHlo.after hostOps0 (W0 m ρ c) (Proc.devRef .tc main_arg4) = _
  after_results_simp

/-! ## The first dense transform -/

theorem W2_t1 (c : Dev nD) : W2 m ρ c (Proc.devRef .tc main_v27) = t1 m c := by
  refine (W2_arr m ρ c 2).trans ?_
  rw [Cert.KernelIdeal.RegionMatmul.final0 (V1 m ρ) c]
  show Cert.Gcn.mm1 (W1 m ρ c (Proc.devRef .tc main_arg0)) (W1 m ρ c (Proc.devRef .tc main_arg1)) = _
  rw [W1_arg0, W1_arg1]

/-! ## The first message passing, and the bias as a row -/

theorem W3_a1 (c : Dev nD) : W3 m ρ c (Proc.devRef .tc main_v40) = a1 m c := by
  show StableHlo.after hostOps1 (W2 m ρ c) (Proc.devRef .tc main_v40) = _
  after_results_simp
  rw [W2_t1, W2_of_ne m ρ c main_v3 (by decide), W2_of_ne m ρ c main_v6 (by decide), W2_of_ne m ρ c main_v26 (by decide),
    W1_src, W1_dst, W1_norm]
  rfl

theorem W3_b1 (c : Dev nD) : W3 m ρ c (Proc.devRef .tc main_v41) = Cert.Gcn.row64 (F := Ideal) (m ((c.tc : Thread nD τ).loc main_arg2)) := by
  show StableHlo.after hostOps1 (W2 m ρ c) (Proc.devRef .tc main_v41) = _
  after_results_simp
  rw [W2_of_ne m ρ c main_arg2 (by decide), W1_arg2]
  exact row64_reshape _ _

/-! ## The first bias pass -/

theorem W4_hid (c : Dev nD) : W4 m ρ c (Proc.devRef .tc main_v42) = hid m c := by
  refine (W4_arr m ρ c 2).trans ?_
  rw [Cert.KernelIdeal.RegionBias.final1 (V3 m ρ) c]
  show Cert.Gcn.biasRelu64 (W3 m ρ c (Proc.devRef .tc main_v40)) (W3 m ρ c (Proc.devRef .tc main_v41)) = _
  rw [W3_a1, W3_b1]

/-! ## The second dense transform -/

theorem W4_arg3 (c : Dev nD) : W4 m ρ c (Proc.devRef .tc main_arg3) = (m ((c.tc : Thread nD τ).loc main_arg3)) := by
  rw [W4_of_ne m ρ c main_arg3 (by decide)]
  show StableHlo.after hostOps1 (W2 m ρ c) (Proc.devRef .tc main_arg3) = _
  after_results_simp
  rw [W2_of_ne m ρ c main_arg3 (by decide), W1_arg3]

theorem W5_t2 (c : Dev nD) : W5 m ρ c (Proc.devRef .tc main_v43) = t2 m c := by
  refine (W5_arr m ρ c 2).trans ?_
  rw [Cert.KernelIdeal.RegionMatmul.final2 (V4 m ρ) c]
  show Cert.Gcn.mm2 (W4 m ρ c (Proc.devRef .tc main_v42)) (W4 m ρ c (Proc.devRef .tc main_arg3)) = _
  rw [W4_hid, W4_arg3]

/-! ## What the second message passing reads was computed before the first kernel and is still there -/

theorem W5_src (c : Dev nD) : W5 m ρ c (Proc.devRef .tc main_v3) = Cert.Gcn.srcIdx (F := Ideal) (m ((c.tc : Thread nD τ).loc main_arg5)) := by
  rw [W5_of_ne m ρ c main_v3 (by decide), W4_of_ne m ρ c main_v3 (by decide)]
  show StableHlo.after hostOps1 (W2 m ρ c) (Proc.devRef .tc main_v3) = _
  after_results_simp
  rw [W2_of_ne m ρ c main_v3 (by decide), W1_src]

theorem W5_dst (c : Dev nD) : W5 m ρ c (Proc.devRef .tc main_v6) = Cert.Gcn.dstIdx (F := Ideal) (m ((c.tc : Thread nD τ).loc main_arg5)) := by
  rw [W5_of_ne m ρ c main_v6 (by decide), W4_of_ne m ρ c main_v6 (by decide)]
  show StableHlo.after hostOps1 (W2 m ρ c) (Proc.devRef .tc main_v6) = _
  after_results_simp
  rw [W2_of_ne m ρ c main_v6 (by decide), W1_dst]

theorem W5_norm (c : Dev nD) : W5 m ρ c (Proc.devRef .tc main_v26) = Cert.Gcn.norm (F := Ideal) (m ((c.tc : Thread nD τ).loc main_arg5)) := by
  rw [W5_of_ne m ρ c main_v26 (by decide), W4_of_ne m ρ c main_v26 (by decide)]
  show StableHlo.after hostOps1 (W2 m ρ c) (Proc.devRef .tc main_v26) = _
  after_results_simp
  rw [W2_of_ne m ρ c main_v26 (by decide), W1_norm]

theorem W5_arg4 (c : Dev nD) : W5 m ρ c (Proc.devRef .tc main_arg4) = (m ((c.tc : Thread nD τ).loc main_arg4)) := by
  rw [W5_of_ne m ρ c main_arg4 (by decide), W4_of_ne m ρ c main_arg4 (by decide)]
  show StableHlo.after hostOps1 (W2 m ρ c) (Proc.devRef .tc main_arg4) = _
  after_results_simp
  rw [W2_of_ne m ρ c main_arg4 (by decide), W1_arg4]

/-! ## The second message passing, and the bias as a row -/

theorem W6_a2 (c : Dev nD) : W6 m ρ c (Proc.devRef .tc main_v56) = a2 m c := by
  show StableHlo.after hostOps3 (W5 m ρ c) (Proc.devRef .tc main_v56) = _
  after_results_simp
  rw [W5_t2, W5_src, W5_dst, W5_norm]
  rfl

theorem W6_b2 (c : Dev nD) : W6 m ρ c (Proc.devRef .tc main_v57) = Cert.Gcn.row32 (F := Ideal) (m ((c.tc : Thread nD τ).loc main_arg4)) := by
  show StableHlo.after hostOps3 (W5 m ρ c) (Proc.devRef .tc main_v57) = _
  after_results_simp
  rw [W5_arg4]
  exact row32_reshape _ _

/-! ## The second bias pass: the result -/

/-- The result buffer at the end of the run holds the encoder of the six argument arrays. -/
theorem W7_out (c : Dev nD) : W7 m ρ c (Proc.devRef .tc main_v58)
    = Cert.Gcn.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W7_arr m ρ c 2).trans ?_
  rw [Cert.KernelIdeal.RegionBias.final3 (V6 m ρ) c]
  show Cert.Gcn.bias32 (W6 m ρ c (Proc.devRef .tc main_v56)) (W6 m ρ c (Proc.devRef .tc main_v57)) = _
  rw [W6_a2, W6_b2]
  rfl

end Cert.KernelIdeal.Fold

end
-- ==== Proof.RefSide.lean ====
/-
  The reference program computes `Cert.Gcn.out` of its six argument arrays: its run's result term is that
  function's definition written out, the shared pieces (edge ends, wrapped node numbers, edge weights) repeated
  where the program reads them.
-/
import proofs.«150718_j78494822302121_1_alg».proof.Proof.Gen.ReferenceIdeal.Run
import proofs.«150718_j78494822302121_1_alg».proof.Proof.Spec
import Idealize.ShloMosaic.PureOps.Ideal

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value

/-- The reference's result is the encoder of its arguments. -/
theorem result_eq (m : (ℓ : Loc nD τ sig) → Buf (Elt Ideal) ℓ) (c : Dev nD) :
    res_main_v61 (F := Ideal) m c
      = Cert.Gcn.out (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v61 Cert.Gcn.out Cert.Gcn.bias32 Cert.Gcn.agg32 Cert.Gcn.mm2 Cert.Gcn.biasRelu64 Cert.Gcn.agg64 Cert.Gcn.mm1
    Cert.Gcn.row64 Cert.Gcn.row32 Cert.Gcn.norm Cert.Gcn.dinv Cert.Gcn.wrap Cert.Gcn.srcIdx Cert.Gcn.dstIdx
  rfl

end Cert.ReferenceIdeal.RefValue

end
-- ==== Proof.lean ====
/-
  The certificate of a two-layer graph-convolution encoder against its array-library reference.

  Both programs compute ONE function of the six argument arrays, `Cert.Gcn.out` (Proof/Spec.lean): the edge ends
  with one self loop per node, the inverse square roots of the in-degrees, per layer a dense transform, the rows
  gathered along the edges, scaled by the edge weights and summed at the destinations, a bias row, and after the
  first layer a clamp below at zero. The two programs share every host operation word for word; they differ in
  the two dense transforms and the two bias passes, which the kernel program does in grids of 20 blocks of 5000
  rows. At the extended reals a block's matrix product accumulated into zeros is the same finite sum over the
  inner axis as the whole product's entry (a change of float format is the identity), and a bias row added
  block by block is the bias row added to every row: Proof/RegionMatmul.lean, Proof/RegionBias.lean. No law
  used needs finiteness, so the precondition is never opened; no operation was rewritten by the idealization,
  so `preserves` asks nothing.
-/
import proofs.«150718_j78494822302121_1_alg».proof.Defs
import proofs.«150718_j78494822302121_1_alg».proof.Proof.Gen.Kernel
import proofs.«150718_j78494822302121_1_alg».proof.Proof.Gen.Kernel.Skeleton
import proofs.«150718_j78494822302121_1_alg».proof.Proof.Gen.Kernel.Launch
import proofs.«150718_j78494822302121_1_alg».proof.Proof.Gen.Kernel.Points
import proofs.«150718_j78494822302121_1_alg».proof.Proof.Gen.Kernel.Frame
import proofs.«150718_j78494822302121_1_alg».proof.Proof.Gen.KernelIdeal
import proofs.«150718_j78494822302121_1_alg».proof.Proof.Gen.KernelIdeal.Skeleton
import proofs.«150718_j78494822302121_1_alg».proof.Proof.Gen.KernelIdeal.Launch
import proofs.«150718_j78494822302121_1_alg».proof.Proof.Gen.KernelIdeal.Points
import proofs.«150718_j78494822302121_1_alg».proof.Proof.Gen.KernelIdeal.Frame
import proofs.«150718_j78494822302121_1_alg».proof.Proof.Gen.ReferenceIdeal
import proofs.«150718_j78494822302121_1_alg».proof.Proof.Gen.ReferenceIdeal.Run
import proofs.«150718_j78494822302121_1_alg».proof.Proof.Gen.Pre_finite_inputs
import proofs.«150718_j78494822302121_1_alg».proof.Proof.KernelIdealRun
import proofs.«150718_j78494822302121_1_alg».proof.Proof.Fold
import proofs.«150718_j78494822302121_1_alg».proof.Proof.RefSide
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference is a line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with `Cert.Gcn.out` of the arguments in their result
    buffers: the kernel program by its run read boundary by boundary (Proof/Fold.lean), the reference because its
    result term is that function written out (Proof/RefSide.lean). -/
theorem algebraic : Cert.algebraic_KernelIdeal_ReferenceIdeal := by
  intro m ρ m' ρ' _ hagree
  refine ⟨fun c => Cert.Gcn.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.W7_out m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
